-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x512 : Shape := ⟨2, ![256, 512]⟩
abbrev S1x512 : Shape := ⟨2, ![1, 512]⟩
abbrev S512x512 : Shape := ⟨2, ![512, 512]⟩
abbrev S512x128 : Shape := ⟨2, ![512, 128]⟩
abbrev S1x128 : Shape := ⟨2, ![1, 128]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S1x512 : S_.BroadcastsInDim S1x512 (![] : Fin 0 → Fin S1x512.rank)
  reducesTo_S1x512_S_d0_1 : S1x512.ReducesTo [0, 1] S_
  bcast_S_S512x512 : S_.BroadcastsInDim S512x512 (![] : Fin 0 → Fin S512x512.rank)
  reducesTo_S512x512_S_d0_1 : S512x512.ReducesTo [0, 1] S_
  bcast_S_S512x128 : S_.BroadcastsInDim S512x128 (![] : Fin 0 → Fin S512x128.rank)
  reducesTo_S512x128_S_d0_1 : S512x128.ReducesTo [0, 1] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x512 .f32) (main_arg5 : FVec F S512x128 .f32) (main_arg6 : FVec F S1x128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S512x128 .f32 := Host.absf main_arg5
  let main_cst_8 : FVec F S_ .f32 := constant S_ .f32 0x7F800000#32
  let main_v25 : FVec F S512x128 .f32 := broadcastInDim S512x128 ![] bcast_S_S512x128 main_cst_8
  let main_v26 : IVec S512x128 1 := cmpf .olt main_v24 main_v25
  let main_c_9 : IVec S_ 1 := constantI S_ 1 1#1
  let main_v27 : IVec S_ 1 := (fun x v => Host.reduce IntOp.andi x v reducesTo_S512x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S16384x256 .f32) (main_arg1 : FVec F S256x512 .f32) (main_arg2 : FVec F S1x512 .f32) (main_arg3 : FVec F S512x512 .f32) (main_arg4 : FVec F S1x512 .f32) (main_arg5 : FVec F S512x128 .f32) (main_arg6 : FVec F S1x128 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_v13 main_v16
-- ==== Kernel.lean ====
abbrev S16384x256 : Shape := ⟨2, ![16384, 256]⟩
abbrev S256x512 : Shape := ⟨2, ![256, 512]⟩
abbrev S1x512 : Shape := ⟨2, ![1, 512]⟩
abbrev S512x512 : Shape := ⟨2, ![512, 512]⟩
abbrev S512x128 : Shape := ⟨2, ![512, 128]⟩
abbrev S1x128 : Shape := ⟨2, ![1, 128]⟩
abbrev S16384x128 : Shape := ⟨2, ![16384, 128]⟩
abbrev S4096x256 : Shape := ⟨2, ![4096, 256]⟩
abbrev S4096x128 : Shape := ⟨2, ![4096, 128]⟩
abbrev S4096x512 : Shape := ⟨2, ![4096, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S256x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x128, .f32⟩
  | .hbm, ⟨6, _⟩ => ⟨S1x128, .f32⟩
  | .hbm, ⟨7, _⟩ => ⟨S16384x128, .f32⟩
  | .local _ .vmem, ⟨0, _⟩ => ⟨S4096x256, .f32⟩
  | .local _ .vmem, ⟨1, _⟩ => ⟨S4096x256, .f32⟩
  | .local _ .vmem, ⟨2, _⟩ => ⟨S256x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  inb_S512x128_S512x128_0_0 : ∀ a, (![0, 0] : Fin 2 → Nat) a + S512x128.size a ≤ S512x128.size a
  h_S512x128 : 0 < S512x128.numel
  inb_S1x512_S1x512_0_0 : ∀ a, (![0, 0] : Fin 2 → Nat) a + S1x512.size a ≤ S1x512.size a
  h_S1x512 : 0 < S1x512.numel
  broadcasts_S1x512_S4096x512 : S1x512.Broadcasts S4096x512
  inb_S1x128_S1x128_0_0 : ∀ a, (![0, 0] : Fin 2 → Nat) a + S1x128.size a ≤ S1x128.size a
  h_S1x128 : 0 < S1x128.numel
  broadcasts_S1x128_S4096x128 : S1x128.Broadcasts S4096x128
  inb_S4096x128_S4096x128_0_0 : ∀ a, (![0, 0] : Fin 2 → Nat) a + S4096x128.size a ≤ S4096x128.size a
  h_S4096x128 : 0 < S4096x128.numel
  dot_S4096x256_S256x512_S4096x512_1_0_0_1_n_n_wf : DotDims.WF S4096x256 S256x512 S4096x512 [1] [0] [0] [1] [] []
  dot_S4096x512_S512x512_S4096x512_1_0_0_1_n_n_wf : DotDims.WF S4096x512 S512x512 S4096x512 [1] [0] [0] [1] [] []
  dot_S4096x512_S512x128_S4096x128_1_0_0_1_n_n_wf : DotDims.WF S4096x512 S512x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S4096x128.size a ≤ S16384x128.size a
  hwx0_7 : ∀ i : grid0.Coords, EltTy.bits .f32 = 32 ∨ (Rect.block (s := S16384x128) S4096x128.size (cc0_transform_7 i) (hinb0_7 i)).WholeWords (EltTy.packing .f32)

variable [Facts₀]

def dot_S4096x256_S256x512_S4096x512_1_0_0_1_n_n : DotDims S4096x256 S256x512 S4096x512 where
  lhsContracting := [1]
  rhsContracting := [0]
  lhsNonContracting := [0]
  rhsNonContracting := [1]
  lhsBatch := []
  rhsBatch := []
  wf := dot_S4096x256_S256x512_S4096x512_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S4096x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x512 : Shape := ⟨2, ![256, 512]⟩
abbrev S1x512 : Shape := ⟨2, ![1, 512]⟩
abbrev S512x512 : Shape := ⟨2, ![512, 512]⟩
abbrev S512x128 : Shape := ⟨2, ![512, 128]⟩
abbrev S1x128 : Shape := ⟨2, ![1, 128]⟩
abbrev S_ : Shape := ⟨0, ![]⟩
abbrev S16384x128 : Shape := ⟨2, ![16384, 128]⟩
abbrev S256x256 : Shape := ⟨2, ![256, 256]⟩
abbrev S256x128 : Shape := ⟨2, ![256, 128]⟩

abbrev nBuf : Space → Nat
  | .hbm => 29
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S256x512, .f32⟩
  | .hbm, ⟨2, _⟩ => ⟨S1x512, .f32⟩
  | .hbm, ⟨3, _⟩ => ⟨S512x512, .f32⟩
  | .hbm, ⟨4, _⟩ => ⟨S1x512, .f32⟩
  | .hbm, ⟨5, _⟩ => ⟨S512x128, .f32⟩
  | .hbm, ⟨6, _⟩ => ⟨S1x128, .f32⟩
  | .hbm, ⟨7, _⟩ => ⟨S_, .i32⟩
  | .hbm, ⟨8, _⟩ => ⟨S_, .f32⟩
  | .hbm, ⟨9, _⟩ => ⟨S16384x256, .f32⟩
  | .hbm, ⟨10, _⟩ => ⟨S_, .i32⟩
  | .hbm, ⟨11, _⟩ => ⟨S_, .f32⟩
  | .hbm, ⟨12, _⟩ => ⟨S256x512, .f32⟩
  | .hbm, ⟨13, _⟩ => ⟨S_, .i32⟩
  | .hbm, ⟨14, _⟩ => ⟨S_, .f32⟩
  | .hbm, ⟨15, _⟩ => ⟨S1x512, .f32⟩
  | .hbm, ⟨16, _⟩ => ⟨S_, .i32⟩
  | .hbm, ⟨17, _⟩ => ⟨S_, .f32⟩
  | .hbm, ⟨18, _⟩ => ⟨S512x512, .f32⟩
  | .hbm, ⟨19, _⟩ => ⟨S_, .i32⟩
  | .hbm, ⟨20, _⟩ => ⟨S_, .f32⟩
  | .hbm, ⟨21, _⟩ => ⟨S1x512, .f32⟩
  | .hbm, ⟨22, _⟩ => ⟨S_, .i32⟩
  | .hbm, ⟨23, _⟩ => ⟨S_, .f32⟩
  | .hbm, ⟨24, _⟩ => ⟨S512x128, .f32⟩
  | .hbm, ⟨25, _⟩ => ⟨S_, .i32⟩
  | .hbm, ⟨26, _⟩ => ⟨S_, .f32⟩
  | .hbm, ⟨27, _⟩ => ⟨S1x128, .f32⟩
  | .hbm, ⟨28, _⟩ => ⟨S16384x128, .f32⟩
  | .local _ .vmem, ⟨0, _⟩ => ⟨S256x256, .f32⟩
  | .local _ .vmem, ⟨1, _⟩ => ⟨S256x256, .f32⟩
  | .local _ .vmem, ⟨2, _⟩ => ⟨S256x512, .f32⟩
  | .local _ .vmem, ⟨3, _⟩ => ⟨S1x512, .f32⟩
  | .local _ .vmem, ⟨4, _⟩ => ⟨S512x512, .f32⟩
  | .local _ .vmem, ⟨5, _⟩ => ⟨S1x512, .f32⟩
  | .local _ .vmem, ⟨6, _⟩ => ⟨S512x128, .f32⟩
  | .local _ .vmem, ⟨7, _⟩ => ⟨S1x128, .f32⟩
  | .local _ .vmem, ⟨8, _⟩ => ⟨S256x128, .f32⟩
  | .local _ .vmem, ⟨9, _⟩ => ⟨S256x128, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_call0_v0 : Ref sig .tc := ⟨.hbm, 8, rfl⟩
abbrev main_call0_v0 : Ref sig .tc := ⟨.hbm, 9, rfl⟩
abbrev main_call0_c_0 : Ref sig .tc := ⟨.hbm, 10, rfl⟩
abbrev main_call0_call1_v0 : Ref sig .tc := ⟨.hbm, 11, rfl⟩
abbrev main_call0_v1 : Ref sig .tc := ⟨.hbm, 12, rfl⟩
abbrev main_call0_c_1 : Ref sig .tc := ⟨.hbm, 13, rfl⟩
abbrev main_call0_call2_v0 : Ref sig .tc := ⟨.hbm, 14, rfl⟩
abbrev main_call0_v2 : Ref sig .tc := ⟨.hbm, 15, rfl⟩
abbrev main_call0_c_2 : Ref sig .tc := ⟨.hbm, 16, rfl⟩
abbrev main_call0_call3_v0 : Ref sig .tc := ⟨.hbm, 17, rfl⟩
abbrev main_call0_v3 : Ref sig .tc := ⟨.hbm, 18, rfl⟩
abbrev main_call0_c_3 : Ref sig .tc := ⟨.hbm, 19, rfl⟩
abbrev main_call0_call4_v0 : Ref sig .tc := ⟨.hbm, 20, rfl⟩
abbrev main_call0_v4 : Ref sig .tc := ⟨.hbm, 21, rfl⟩
abbrev main_call0_c_4 : Ref sig .tc := ⟨.hbm, 22, rfl⟩
abbrev main_call0_call5_v0 : Ref sig .tc := ⟨.hbm, 23, rfl⟩
abbrev main_call0_v5 : Ref sig .tc := ⟨.hbm, 24, rfl⟩
abbrev main_call0_c_5 : Ref sig .tc := ⟨.hbm, 25, rfl⟩
abbrev main_call0_call6_v0 : Ref sig .tc := ⟨.hbm, 26, rfl⟩
abbrev main_call0_v6 : Ref sig .tc := ⟨.hbm, 27, rfl⟩
abbrev main_v0 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  pads_S16384x256_S16384x256_000_000 : S16384x256.Pads (![0, 0] : Fin 2 → Nat) ![0, 0] ![0, 0] S16384x256
  h_S_ : 0 < S_.numel
  pads_S256x512_S256x512_000_000 : S256x512.Pads (![0, 0] : Fin 2 → Nat) ![0, 0] ![0, 0] S256x512
  pads_S1x512_S1x512_000_000 : S1x512.Pads (![0, 0] : Fin 2 → Nat) ![0, 0] ![0, 0] S1x512
  pads_S512x512_S512x512_000_000 : S512x512.Pads (![0, 0] : Fin 2 → Nat) ![0, 0] ![0, 0] S512x512
  pads_S512x128_S512x128_000_000 : S512x128.Pads (![0, 0] : Fin 2 → Nat) ![0, 0] ![0, 0] S512x128
  pads_S1x128_S1x128_000_000 : S1x128.Pads (![0, 0] : Fin 2 → Nat) ![0, 0] ![0, 0] S1x128
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S256x128 : S1x128.Broadcasts S256x128
  inb_S256x128_S256x128_0_0 : ∀ a, (![0, 0] : Fin 2 → Nat) a + S256x128.size a ≤ S256x128.size a
  h_S256x128 : 0 < S256x128.numel
  dot_S256x256_S256x512_S256x512_1_0_0_1_n_n_wf : DotDims.WF S256x256 S256x512 S256x512 [1] [0] [0] [1] [] []
  dot_S256x512_S512x512_S256x512_1_0_0_1_n_n_wf : DotDims.WF S256x512 S512x512 S256x512 [1] [0] [0] [1] [] []
  dot_S256x512_S512x128_S256x128_1_0_0_1_n_n_wf : DotDims.WF S256x512 S512x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S16384x256.size a
  hwx0_0 : ∀ i : grid0.Coords, EltTy.bits .f32 = 32 ∨ (Rect.block (s := S16384x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x128.size a ≤ S512x128.size a
  hwx0_5 : ∀ i : grid0.Coords, EltTy.bits .f32 = 32 ∨ (Rect.block (s := S512x128) S512x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x128.size a ≤ S16384x128.size a
  hwx0_7 : ∀ i : grid0.Coords, EltTy.bits .f32 = 32 ∨ (Rect.block (s := S16384x128) S256x128.size (cc0_transform_7 i) (hinb0_7 i)).WholeWords (EltTy.packing .f32)

variable [Facts₀]

def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x128_S256x128_1_0_0_1_n_n : DotDims S256x512 S512x128 S256x128 where
  lhsContracting := [1]
  rhsContracting := [0]
  lhsNonContracting := [0]
  rhsNonContracting := [1]
  lhsBatch := []
  rhsBatch := []
  wf := dot_S256x512_S512x128_S256x128_1_0_0_1_n_n_wf

abbrev win0_0 : Pipeline.Window sig grid0 :=
  Pipeline.Window.ofSpec (Memref.whole main_call0_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v4) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v5) S512x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v6) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== Proof.LibPlainDot.lean ====
/-
  A plain matrix product read at coordinates.

  `DotDims.plain M K N` are the dimension numbers of an `M×K` by `K×N` product: the left operand is contracted on its
  second axis, the right on its first, no batch axis. At the ideal instance such a product, whether it is the kernel's
  `tpu.matmul` into a zero accumulator or the host's `dot_general`, is at the output index `(r, c)` the sum over
  `k : Fin K` of `A (r, k) * B (k, c)` on the extended reals: the same sum in the same order on both sides, so the two
  agree wherever their operands do.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's index at output index `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl j _).trans hk

/-- The right operand's index at output index `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single (cr := 0) rfl j _).trans hk
  | ⟨1, _⟩ => rfl

/-- The kernel's product into a zero accumulator, at an output index: the sum over the shared axis. -/
theorem matmul_zero_apply (prec : Option ContractPrecision) (A : FVec Ideal ⟨2, ![M, K]⟩ .f32) (B : FVec Ideal ⟨2, ![K, N]⟩ .f32)
    (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index: the same sum. -/
theorem dotGeneral_apply (prec : Option ContractPrecision) (sched : HostSchedule) (A : FVec Ideal ⟨2, ![M, K]⟩ .f32)
    (B : FVec Ideal ⟨2, ![K, N]⟩ .f32) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.LibPlainDotAny.lean ====
/-
  A plain matrix product read at coordinates, at any two operand formats.

  At the ideal instance every float format is the extended reals, so an `M×K` by `K×N` product whose operands were
  first narrowed to another format (a kernel that feeds its matrix unit bf16) is still, at the output index `(r, c)`, the
  sum over `k : Fin K` of `A (r, k) * B (k, c)`: for the kernel's product into a zero accumulator and for the host's
  `dot_general` alike, over any dimension record equal to `DotDims.plain M K N`.
-/
import proofs.«144874_g2000506360787946_pallasbulk_1180_5_alg».proof.Proof.LibPlainDot

noncomputable section

open scoped BigOperators

namespace Idealize.ShloMosaic.PlainDot

open Idealize.ShloMosaic Idealize.ShloMosaic.ValueIdx

variable (M K N : Nat)

/-- The kernel's product into a zero accumulator, at an output index, whatever the operands' formats. -/
theorem matmul_zero_apply_any {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    FloatOps.matmul (DotDims.plain M K N) prec A B (constant ⟨2, ![M, N]⟩ .f32 0x00000000#32) j
      = ∑ k : Fin K, A (ix2 (j 0) k) * B (ix2 k (j 1)) := by
  rw [Ideal.matmul_constant_zero_apply, ← Equiv.sum_comp (contrEquiv1 (DotDims.plain M K N) K rfl rfl).symm]
  refine Finset.sum_congr rfl fun k _ => ?_
  rw [lhsIdx_eq, rhsIdx_eq]
  rfl

/-- The host's product, at an output index, whatever the operands' formats. -/
theorem dotGeneral_apply_any {φ₁ φ₂ : FTy} (prec : Option ContractPrecision) (sched : HostSchedule)
    (A : FVec Ideal ⟨2, ![M, K]⟩ φ₁) (B : FVec Ideal ⟨2, ![K, N]⟩ φ₂) (j : (⟨2, ![M, N]⟩ : Shape).Idx) :
    FloatOps.dotGeneral (DotDims.plain M K N) prec sched A B j = ∑ k : Fin K, A (ix2 (j 0) k) * B (ix2 k (j 1)) := by
  rw [Ideal.dotGeneral_apply, ← Equiv.sum_comp (contrEquiv1 (DotDims.plain M K N) K rfl rfl).symm]
  refine Finset.sum_congr rfl fun k _ => ?_
  rw [lhsIdx_eq, rhsIdx_eq]
  rfl

end Idealize.ShloMosaic.PlainDot

end
-- ==== Proof.MlpSpec.lean ====
/-
  A three-layer perceptron, one row at a time.

  A dense layer sends a row `a` of `K` entries to the row whose entry `c` is `Σ_k a k · w (k, c) + b (0, c)`; the
  rectifier is the maximum with the float zero. The network is two rectified dense layers and a third dense layer
  without one: `256 → 512 → 512 → 128`. Row `r` of the result depends on row `r` of the input alone, so a program
  that works on blocks of `M` rows computes, at row `p` of a block, the network of that block's row `p`, whatever
  `M` is: this is what makes two tilings of the rows agree.

  One layer of a block, as the programs spell it — a matrix product into a zero accumulator plus the bias row
  broadcast down the rows — is read at an index here (`layer_apply`), for operands of any float format: at the ideal
  instance a change of format is the identity, so narrowing the operands first changes nothing.
-/
import proofs.«144874_g2000506360787946_pallasbulk_1180_5_alg».proof.Proof.LibPlainDotAny
import Idealize.ShloMosaic.Lib.Pipeline.Value

noncomputable section

open scoped BigOperators

namespace Cert.Mlp

open Idealize.ShloMosaic Idealize.ShloMosaic.ValueIdx

/-- The float zero the rectifier compares with, as the programs print it. -/
abbrev zero : EReal := (Scalar.ofBits .f32 0x00000000#32 : Ideal .f32)

/-- The rectifier. -/
def relu (x : EReal) : EReal := max x zero

/-- A dense layer on one row: entry `c` is `Σ_k a k · w (k, c) + b (0, c)`. -/
def dense {K N : Nat} (a : Fin K → EReal) (w : FVec Ideal ⟨2, ![K, N]⟩ .f32) (b : FVec Ideal ⟨2, ![1, N]⟩ .f32)
    (c : Fin N) : EReal :=
  (∑ k : Fin K, a k * w (ix2 k c)) + b (ix2 0 c)

/-- The network on one row. -/
def row (xr : Fin 256 → EReal) (w1 : FVec Ideal ⟨2, ![256, 512]⟩ .f32) (b1 : FVec Ideal ⟨2, ![1, 512]⟩ .f32)
    (w2 : FVec Ideal ⟨2, ![512, 512]⟩ .f32) (b2 : FVec Ideal ⟨2, ![1, 512]⟩ .f32)
    (w3 : FVec Ideal ⟨2, ![512, 128]⟩ .f32) (b3 : FVec Ideal ⟨2, ![1, 128]⟩ .f32) (c : Fin 128) : EReal :=
  dense (fun k => relu (dense (fun j => relu (dense xr w1 b1 j)) w2 b2 k)) w3 b3 c

/-- The network on an array of `M` rows: row `p` of the result is the network of row `p`. -/
def rows (M : Nat) (x : FVec Ideal ⟨2, ![M, 256]⟩ .f32) (w1 : FVec Ideal ⟨2, ![256, 512]⟩ .f32)
    (b1 : FVec Ideal ⟨2, ![1, 512]⟩ .f32) (w2 : FVec Ideal ⟨2, ![512, 512]⟩ .f32) (b2 : FVec Ideal ⟨2, ![1, 512]⟩ .f32)
    (w3 : FVec Ideal ⟨2, ![512, 128]⟩ .f32) (b3 : FVec Ideal ⟨2, ![1, 128]⟩ .f32) : FVec Ideal ⟨2, ![M, 128]⟩ .f32 :=
  fun i => row (fun a => x (ix2 (i 0) a)) w1 b1 w2 b2 w3 b3 (i 1)

/-- Two arrays of rows whose rows `j 0` and `i 0` hold the same entries have the same network at `(j 0, c)` and
    `(i 0, c)`: the network of a row looks at that row alone. -/
theorem rows_congr {M M' : Nat} (x : FVec Ideal ⟨2, ![M, 256]⟩ .f32) (x' : FVec Ideal ⟨2, ![M', 256]⟩ .f32)
    (w1 : FVec Ideal ⟨2, ![256, 512]⟩ .f32) (b1 : FVec Ideal ⟨2, ![1, 512]⟩ .f32) (w2 : FVec Ideal ⟨2, ![512, 512]⟩ .f32)
    (b2 : FVec Ideal ⟨2, ![1, 512]⟩ .f32) (w3 : FVec Ideal ⟨2, ![512, 128]⟩ .f32) (b3 : FVec Ideal ⟨2, ![1, 128]⟩ .f32)
    (j : (⟨2, ![M, 128]⟩ : Shape).Idx) (i : (⟨2, ![M', 128]⟩ : Shape).Idx)
    (hx : ∀ a : Fin 256, x (ix2 (j 0) a) = x' (ix2 (i 0) a)) (hc : j 1 = i 1) :
    rows M x w1 b1 w2 b2 w3 b3 j = rows M' x' w1 b1 w2 b2 w3 b3 i := by
  unfold rows
  rw [hc, funext hx]

/-- A bias row broadcast down `M` rows, read at an index: the bias at that column. -/
theorem bias_apply {M N : Nat} (b : FVec Ideal ⟨2, ![1, N]⟩ .f32)
    (h : (⟨2, ![1, N]⟩ : Shape).Broadcasts ⟨2, ![M, N]⟩) (hN : N ≠ 1) (j : (⟨2, ![M, N]⟩ : Shape).Idx) :
    broadcastTo ⟨2, ![M, N]⟩ b h j = b (ix2 0 (j 1)) := by
  refine broadcastTo_apply b h j (ix2 0 (j 1)) fun a => ?_
  match a with
  | ⟨0, _⟩ => rfl
  | ⟨1, _⟩ => exact (if_neg hN).symm

/-- One layer of a block of `M` rows — the product of the block with the weights into a zero accumulator, plus the
    bias row broadcast down the rows — read at an index: the dense layer of that row at that column. -/
theorem layer_apply {M K N : Nat} {φ₁ φ₂ : FTy} (A : FVec Ideal ⟨2, ![M, K]⟩ φ₁) (W : FVec Ideal ⟨2, ![K, N]⟩ φ₂)
    (b : FVec Ideal ⟨2, ![1, N]⟩ .f32) (h : (⟨2, ![1, N]⟩ : Shape).Broadcasts ⟨2, ![M, N]⟩) (hN : N ≠ 1)
    (j : (⟨2, ![M, N]⟩ : Shape).Idx) :
    addf (matmul (DotDims.plain M K N) none A W (constant ⟨2, ![M, N]⟩ .f32 0x00000000#32))
        (broadcastTo ⟨2, ![M, N]⟩ b h) j
      = dense (fun k => A (ix2 (j 0) k)) W b (j 1) := by
  rw [addf_apply, bias_apply b h hN]
  show FloatOps.matmul (DotDims.plain M K N) none A W (constant ⟨2, ![M, N]⟩ .f32 0x00000000#32) j + _ = _
  rw [PlainDot.matmul_zero_apply_any]
  rfl

end Cert.Mlp

end
-- ==== Proof.KernelValue.lean ====
/-
  The kernel's value: the whole result array as one function of the argument arrays.

  The kernel walks the 16384 rows of the input in four blocks of 4096. On a block its body narrows the block and the three
  weight matrices to bf16 — the identity at the ideal instance —, and applies the three layers: a product into a zero
  accumulator, the bias row added down the rows, the rectifier after the first two. So the block it stores is, row by
  row, the network of the block's rows (`payload_eq`), and since the weight and bias windows are the whole arrays at
  every point, what point `t` writes back is block `t` of the network of all rows (`flushed_eq`). The four blocks
  tile the result array (`cover`), which therefore ends at that function of the arguments (`final`, `run`).
-/
import proofs.«144874_g2000506360787946_pallasbulk_1180_5_alg».proof.Proof.Gen.KernelIdeal.Value
import proofs.«144874_g2000506360787946_pallasbulk_1180_5_alg».proof.Proof.MlpSpec

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- The printed dimension records are those of a plain product. -/
theorem dot1_eq : dot_S4096x256_S256x512_S4096x512_1_0_0_1_n_n = DotDims.plain 4096 256 512 := rfl
theorem dot2_eq : dot_S4096x512_S512x512_S4096x512_1_0_0_1_n_n = DotDims.plain 4096 512 512 := rfl
theorem dot3_eq : dot_S4096x512_S512x128_S4096x128_1_0_0_1_n_n = DotDims.plain 4096 512 128 := rfl

/-- The body's stored value on a block of 4096 rows: row by row the network of the block's rows. The narrowing to bf16
    before each product is the identity on the extended reals. -/
theorem payload_eq (x : Vec Ideal S4096x256 .f32) (w1 : Vec Ideal S256x512 .f32) (w2 : Vec Ideal S512x512 .f32)
    (w3 : Vec Ideal S512x128 .f32) (b1 : Vec Ideal S1x512 .f32) (b2 : Vec Ideal S1x512 .f32) (b3 : Vec Ideal S1x128 .f32) :
    k0_pay1 x w1 w2 w3 b1 b2 b3 = Cert.Mlp.rows 4096 x w1 b1 w2 b2 w3 b3 := by
  funext j
  unfold k0_pay1
  rw [dot1_eq, dot2_eq, dot3_eq]
  rw [Cert.Mlp.layer_apply _ _ b3 _ (by decide) j]
  simp only [truncf_apply, maximumf_apply, broadcast_apply, Cert.Mlp.layer_apply _ _ b2 _ (by decide),
    Cert.Mlp.layer_apply _ _ b1 _ (by decide)]
  rfl

variable (m : (ℓ : Loc nD τ sig) → Buf (Elt Ideal) ℓ) (ρ : Dev nD → PrngReg)

theorem origin : (![0, 0] : Fin 2 → Nat) = fun _ => 0 := funext fun a => by fin_cases a <;> rfl

/-- The index maps over the four points: the input's and the result's block index is `(t, 0)`, every weight's and
    bias's `(0, 0)`. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The network of all 16384 rows of the input as the region finds the arrays. -/
abbrev result (c : Dev nD) : S16384x128.Idx → EReal :=
  Cert.Mlp.rows 16384 (V m c main_arg0) (V m c main_arg1) (V m c main_arg2) (V m c main_arg3) (V m c main_arg4)
    (V m c main_arg5) (V m c main_arg6)

/-- A weight's or bias's window is the whole array at every point. -/
theorem blk1 (c : Dev nD) (t : Fin cfg0.N) : (iblk m c 1 t : S256x512.Idx → EReal) = V m c main_arg1 := by
  obtain ⟨-, -, -, -, e0, e1, -⟩ := idx_facts t
  funext y
  show V m c main_arg1 (((cfg0.win 1).blk t).view.emb y) = V m c main_arg1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega
theorem blk2 (c : Dev nD) (t : Fin cfg0.N) : (iblk m c 2 t : S1x512.Idx → EReal) = V m c main_arg2 := by
  obtain ⟨-, -, -, -, -, -, e0, e1, -⟩ := idx_facts t
  funext y
  show V m c main_arg2 (((cfg0.win 2).blk t).view.emb y) = V m c main_arg2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega
theorem blk3 (c : Dev nD) (t : Fin cfg0.N) : (iblk m c 3 t : S512x512.Idx → EReal) = V m c main_arg3 := by
  obtain ⟨-, -, -, -, -, -, -, -, e0, e1, -⟩ := idx_facts t
  funext y
  show V m c main_arg3 (((cfg0.win 3).blk t).view.emb y) = V m c main_arg3 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega
theorem blk4 (c : Dev nD) (t : Fin cfg0.N) : (iblk m c 4 t : S1x512.Idx → EReal) = V m c main_arg4 := by
  obtain ⟨-, -, -, -, -, -, -, -, -, -, e0, e1, -⟩ := idx_facts t
  funext y
  show V m c main_arg4 (((cfg0.win 4).blk t).view.emb y) = V m c main_arg4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega
theorem blk5 (c : Dev nD) (t : Fin cfg0.N) : (iblk m c 5 t : S512x128.Idx → EReal) = V m c main_arg5 := by
  obtain ⟨-, -, -, -, -, -, -, -, -, -, -, -, e0, e1, -⟩ := idx_facts t
  funext y
  show V m c main_arg5 (((cfg0.win 5).blk t).view.emb y) = V m c main_arg5 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 128 + 1 * (y 1).val = (y 1).val; omega
theorem blk6 (c : Dev nD) (t : Fin cfg0.N) : (iblk m c 6 t : S1x128.Idx → EReal) = V m c main_arg6 := by
  obtain ⟨-, -, -, -, -, -, -, -, -, -, -, -, -, -, e0, e1⟩ := idx_facts t
  funext y
  show V m c main_arg6 (((cfg0.win 6).blk t).view.emb y) = V m c main_arg6 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- What point `t` writes back is block `t` of the network of all rows: row `p` of the input's block `t` is row
    `4096 t + p` of the input, and that is the row of the result the block's row `p` lands on. -/
theorem flushed_eq (c : Dev nD) (t : Fin cfg0.N) :
    (dats m 0 c).flushed 7 t = ((cfg0.win 7).blk t).view.read (Elt Ideal) (result m c) := by
  rw [Cert.KernelIdeal.Value.flushed7]
  unfold out0_7
  rw [View.canon_unit_zero origin]
  simp only [View.ld_unit_zero (S := S4096x256) origin, View.ld_unit_zero (S := S256x512) origin,
    View.ld_unit_zero (S := S512x512) origin, View.ld_unit_zero (S := S512x128) origin,
    View.ld_unit_zero (S := S1x512) origin, View.ld_unit_zero (S := S1x128) origin]
  rw [payload_eq]
  obtain ⟨e00, e01, e70, e71, -⟩ := idx_facts t
  funext j
  show Cert.Mlp.rows 4096 (iblk m c 0 t) (iblk m c 1 t) (iblk m c 2 t) (iblk m c 3 t) (iblk m c 4 t) (iblk m c 5 t)
      (iblk m c 6 t) j = result m c (((cfg0.win 7).blk t).view.emb j)
  rw [blk1, blk2, blk3, blk4, blk5, blk6]
  refine Cert.Mlp.rows_congr _ _ _ _ _ _ _ _ j _ (fun a => ?_) (Fin.ext ?_)
  · show V m c main_arg0 (((cfg0.win 0).blk t).view.emb (ix2 (j 0) a)) = V m c main_arg0 (ix2 ((((cfg0.win 7).blk t).view.emb j) 0) a)
    refine congrArg _ (funext fun d => Fin.ext ?_)
    match d with
    | ⟨0, _⟩ => show win0_0.index t (0 : Fin 2) * 4096 + 1 * (j 0).val = win0_7.index t (0 : Fin 2) * 4096 + 1 * (j 0).val; omega
    | ⟨1, _⟩ => show win0_0.index t (1 : Fin 2) * 256 + 1 * a.val = a.val; omega
  · show (j 1).val = win0_7.index t (1 : Fin 2) * 128 + 1 * (j 1).val; omega

/-- An index of the result array is in point `t`'s block iff each coordinate is in the block's range on its axis. -/
theorem mem_blk (t : Fin cfg0.N) (i : S16384x128.Idx) :
    i ∈ ((cfg0.win 7).blk t).view.set ↔ ∀ a : Fin 2, win0_7.index t a * S4096x128.size a ≤ (i a).val ∧ (i a).val < win0_7.index t a * S4096x128.size a + S4096x128.size a := by
  show i ∈ ((View.whole main_v0).slice (win0_7.rect t)).set ↔ _
  rw [View.set_slice_whole, Rect.mem_set_unit]
  exact Iff.rfl

/-- The four blocks cover the result array: row `r` is in the block of point `r / 4096`. -/
theorem cover (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  refine ⟨⟨(i 0).val / 4096, by show _ < 4; omega⟩, flush0_7 _, ?_⟩
  rw [mem_blk]
  obtain ⟨-, -, e70, e71, -⟩ := idx_facts ⟨(i 0).val / 4096, by show _ < 4; omega⟩
  intro a
  match a with
  | ⟨0, _⟩ => show win0_7.index _ (0 : Fin 2) * 4096 ≤ (i 0).val ∧ (i 0).val < win0_7.index _ (0 : Fin 2) * 4096 + 4096; rw [e70]; show (i 0).val / 4096 * 4096 ≤ (i 0).val ∧ (i 0).val < (i 0).val / 4096 * 4096 + 4096; omega
  | ⟨1, _⟩ => show win0_7.index _ (1 : Fin 2) * 128 ≤ (i 1).val ∧ (i 1).val < win0_7.index _ (1 : Fin 2) * 128 + 128; rw [e71]; omega

/-- The result array after the run is the network of all rows. -/
theorem final (c : Dev nD) : (dats m 0 c).arrAt 7 cfg0.N = result m c :=
  (dats m 0 c).arrAt_eq_of_cover 7 (result m c) (fun t _ => flushed_eq m c t) cover

/-- The kernel's run: the result array ends at the network of the argument arrays' rows, the arguments unchanged. -/
theorem run : θ_run defs (onTc (τ := τ) (main (F := Ideal))) ⟨m, fun _ => 0, ρ⟩ fun r => ∀ c : Dev nD,
      r.2.mem ((c : Thread nD τ).loc main_v0) = Cert.Mlp.rows 16384 (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.KernelIdeal.Value.run_blocks m ρ)

end Cert.KernelIdeal.Whole

end
-- ==== Proof.LibPadNone.lean ====
/-
  A pad that adds nothing.

  A host `pad` of a rank-2 array with no low, high or interior padding reads, at every index, the operand at that
  index: the result is the operand, whatever the padding value.
-/
import Idealize.ShloMosaic.Lib.KernelVsHost

noncomputable section

namespace Idealize.ShloMosaic.PadNone

open Idealize.ShloMosaic Idealize.ShloMosaic.ValueIdx

/-- A rank-2 `pad` with all paddings zero is the identity on its operand. -/
theorem pad_zero2 {n0 n1 : Nat} {α : Type} (x : (⟨2, ![n0, n1]⟩ : Shape).Idx → α) {u : Shape} (v : u.Idx → α)
    (h : (⟨2, ![n0, n1]⟩ : Shape).Pads ![0, 0] ![0, 0] ![0, 0] ⟨2, ![n0, n1]⟩) (hu : 0 < u.numel) :
    pad ⟨2, ![n0, n1]⟩ ![0, 0] ![0, 0] ![0, 0] x v h hu = x := by
  funext j
  refine pad_apply_of_inside _ _ _ x v h hu j j fun a => ?_
  match a with
  | ⟨0, _⟩ => show (j 0).val = 0 + (j 0).val * (0 + 1); omega
  | ⟨1, _⟩ => show (j 1).val = 0 + (j 1).val * (0 + 1); omega

end Idealize.ShloMosaic.PadNone

end
-- ==== Proof.ReferenceValue.lean ====
/-
  The reference's value: the whole result array as one function of the argument arrays.

  The reference is the same network as a pipeline of its own, over 64 blocks of 256 rows. Before the region the host
  pads each of the seven arrays by nothing, so the arrays the windows stage are the arguments themselves (`entry0` …
  `entry6`). On a block the body applies the three layers in f32 — the same-shape casts around its loads are the
  identity —, so the block it stores is, row by row, the network of the block's rows (`payload_eq`); the weight and
  bias windows are the whole arrays at every point, so point `t` writes back block `t` of the network of all rows
  (`flushed_eq`), the 64 blocks tile the result array (`cover`), and it ends at that function of the arguments
  (`final`, `run`).
-/
import proofs.«144874_g2000506360787946_pallasbulk_1180_5_alg».proof.Proof.Gen.ReferenceIdeal.Value
import proofs.«144874_g2000506360787946_pallasbulk_1180_5_alg».proof.Proof.MlpSpec
import proofs.«144874_g2000506360787946_pallasbulk_1180_5_alg».proof.Proof.LibPadNone
import Idealize.ShloMosaic.Lib.StableHlo.Run

noncomputable section

namespace Cert.ReferenceIdeal.Whole

open Cert.ReferenceIdeal Cert.ReferenceIdeal.Gen Idealize.ShloMosaic Idealize.ShloMosaic.TcCoe Idealize.SL.Sem
open Idealize.ShloMosaic.ValueIdx
open Idealize.ShloMosaic.Pipeline (Dat)

/-- The printed dimension records are those of a plain product. -/
theorem dot1_eq : dot_S256x256_S256x512_S256x512_1_0_0_1_n_n = DotDims.plain 256 256 512 := rfl
theorem dot2_eq : dot_S256x512_S512x512_S256x512_1_0_0_1_n_n = DotDims.plain 256 512 512 := rfl
theorem dot3_eq : dot_S256x512_S512x128_S256x128_1_0_0_1_n_n = DotDims.plain 256 512 128 := rfl

/-- The body's stored value on a block of 256 rows: row by row the network of the block's rows. -/
theorem payload_eq (x : Vec Ideal S256x256 .f32) (w1 : Vec Ideal S256x512 .f32) (b1 : Vec Ideal S1x512 .f32)
    (w2 : Vec Ideal S512x512 .f32) (b2 : Vec Ideal S1x512 .f32) (w3 : Vec Ideal S512x128 .f32) (b3 : Vec Ideal S1x128 .f32) :
    k0_pay1 x w1 b1 w2 b2 w3 b3 = Cert.Mlp.rows 256 x w1 b1 w2 b2 w3 b3 := by
  funext j
  unfold k0_pay1
  rw [dot1_eq, dot2_eq, dot3_eq]
  simp only [shapeCast_self]
  rw [Cert.Mlp.layer_apply _ _ b3 _ (by decide) j]
  simp only [maximumf_apply, broadcast_apply, Cert.Mlp.layer_apply _ _ b2 _ (by decide),
    Cert.Mlp.layer_apply _ _ b1 _ (by decide)]
  rfl

variable (m : (ℓ : Loc nD τ sig) → Buf (Elt Ideal) ℓ) (ρ : Dev nD → PrngReg)

/-! ## The arrays the region finds: each argument padded by nothing -/

theorem entry0 (c : Dev nD) : (V m c main_call0_v0 : S16384x256.Idx → EReal) = m ((c : Thread nD τ).loc main_arg0) := by
  dsimp only [V, hostOps0]
  after_results
  show pad S16384x256 ![0, 0] ![0, 0] ![0, 0] (m ((c : Thread nD τ).loc main_arg0))
    (sitofp (F := Ideal) .f32 (constantI S_ 32 0#32)) pads_S16384x256_S16384x256_000_000 h_S_ = _
  exact PadNone.pad_zero2 _ _ pads_S16384x256_S16384x256_000_000 h_S_
theorem entry1 (c : Dev nD) : (V m c main_call0_v1 : S256x512.Idx → EReal) = m ((c : Thread nD τ).loc main_arg1) := by
  dsimp only [V, hostOps0]
  after_results
  show pad S256x512 ![0, 0] ![0, 0] ![0, 0] (m ((c : Thread nD τ).loc main_arg1))
    (sitofp (F := Ideal) .f32 (constantI S_ 32 0#32)) pads_S256x512_S256x512_000_000 h_S_ = _
  exact PadNone.pad_zero2 _ _ pads_S256x512_S256x512_000_000 h_S_
theorem entry2 (c : Dev nD) : (V m c main_call0_v2 : S1x512.Idx → EReal) = m ((c : Thread nD τ).loc main_arg2) := by
  dsimp only [V, hostOps0]
  after_results
  show pad S1x512 ![0, 0] ![0, 0] ![0, 0] (m ((c : Thread nD τ).loc main_arg2))
    (sitofp (F := Ideal) .f32 (constantI S_ 32 0#32)) pads_S1x512_S1x512_000_000 h_S_ = _
  exact PadNone.pad_zero2 _ _ pads_S1x512_S1x512_000_000 h_S_
theorem entry3 (c : Dev nD) : (V m c main_call0_v3 : S512x512.Idx → EReal) = m ((c : Thread nD τ).loc main_arg3) := by
  dsimp only [V, hostOps0]
  after_results
  show pad S512x512 ![0, 0] ![0, 0] ![0, 0] (m ((c : Thread nD τ).loc main_arg3))
    (sitofp (F := Ideal) .f32 (constantI S_ 32 0#32)) pads_S512x512_S512x512_000_000 h_S_ = _
  exact PadNone.pad_zero2 _ _ pads_S512x512_S512x512_000_000 h_S_
theorem entry4 (c : Dev nD) : (V m c main_call0_v4 : S1x512.Idx → EReal) = m ((c : Thread nD τ).loc main_arg4) := by
  dsimp only [V, hostOps0]
  after_results
  show pad S1x512 ![0, 0] ![0, 0] ![0, 0] (m ((c : Thread nD τ).loc main_arg4))
    (sitofp (F := Ideal) .f32 (constantI S_ 32 0#32)) pads_S1x512_S1x512_000_000 h_S_ = _
  exact PadNone.pad_zero2 _ _ pads_S1x512_S1x512_000_000 h_S_
theorem entry5 (c : Dev nD) : (V m c main_call0_v5 : S512x128.Idx → EReal) = m ((c : Thread nD τ).loc main_arg5) := by
  dsimp only [V, hostOps0]
  after_results
  show pad S512x128 ![0, 0] ![0, 0] ![0, 0] (m ((c : Thread nD τ).loc main_arg5))
    (sitofp (F := Ideal) .f32 (constantI S_ 32 0#32)) pads_S512x128_S512x128_000_000 h_S_ = _
  exact PadNone.pad_zero2 _ _ pads_S512x128_S512x128_000_000 h_S_
theorem entry6 (c : Dev nD) : (V m c main_call0_v6 : S1x128.Idx → EReal) = m ((c : Thread nD τ).loc main_arg6) := by
  dsimp only [V, hostOps0]
  after_results
  show pad S1x128 ![0, 0] ![0, 0] ![0, 0] (m ((c : Thread nD τ).loc main_arg6))
    (sitofp (F := Ideal) .f32 (constantI S_ 32 0#32)) pads_S1x128_S1x128_000_000 h_S_ = _
  exact PadNone.pad_zero2 _ _ pads_S1x128_S1x128_000_000 h_S_

/-! ## From the blocks to the array -/

theorem origin : (![0, 0] : Fin 2 → Nat) = fun _ => 0 := funext fun a => by fin_cases a <;> rfl

/-- The index maps over the 64 points: the input's and the result's block index is `(t, 0)`, every weight's and
    bias's `(0, 0)`. -/
theorem idx_facts : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The network of all 16384 rows of the input as the region finds the arrays. -/
abbrev result (c : Dev nD) : S16384x128.Idx → EReal :=
  Cert.Mlp.rows 16384 (V m c main_call0_v0) (V m c main_call0_v1) (V m c main_call0_v2) (V m c main_call0_v3)
    (V m c main_call0_v4) (V m c main_call0_v5) (V m c main_call0_v6)

/-- A weight's or bias's window is the whole array at every point. -/
theorem blk1 (c : Dev nD) (t : Fin cfg0.N) : (iblk m c 1 t : S256x512.Idx → EReal) = V m c main_call0_v1 := by
  obtain ⟨-, -, -, -, e0, e1, -⟩ := idx_facts t
  funext y
  show V m c main_call0_v1 (((cfg0.win 1).blk t).view.emb y) = V m c main_call0_v1 y
  refine congrArg _ (funext fun a => Fin.ext ?_)
  match a with
  | ⟨0, _⟩ => show win0_1.index t (0 : Fin 2) * 256 + 1 * (y 0).val = (y 0).val; omega
  | ⟨1, _⟩ => show win0_1.index t (1 : Fin 2) * 512 + 1 * (y 1).val = (y 1).val; omega
theorem blk2 (c : Dev nD) (t : Fin cfg0.N) : (iblk m c 2 t : S1x512.Idx → EReal) = V m c main_call0_v2 := by
  obtain ⟨-, -, -, -, -, -, e0, e1, -⟩ := idx_facts t
  funext y
  show V m c main_call0_v2 (((cfg0.win 2).blk t).view.emb y) = V m c main_call0_v2 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 512 + 1 * (y 1).val = (y 1).val; omega
theorem blk3 (c : Dev nD) (t : Fin cfg0.N) : (iblk m c 3 t : S512x512.Idx → EReal) = V m c main_call0_v3 := by
  obtain ⟨-, -, -, -, -, -, -, -, e0, e1, -⟩ := idx_facts t
  funext y
  show V m c main_call0_v3 (((cfg0.win 3).blk t).view.emb y) = V m c main_call0_v3 y
  refine congrArg _ (funext fun a => Fin.ext ?_)
  match a with
  | ⟨0, _⟩ => show win0_3.index t (0 : Fin 2) * 512 + 1 * (y 0).val = (y 0).val; omega
  | ⟨1, _⟩ => show win0_3.index t (1 : Fin 2) * 512 + 1 * (y 1).val = (y 1).val; omega
theorem blk4 (c : Dev nD) (t : Fin cfg0.N) : (iblk m c 4 t : S1x512.Idx → EReal) = V m c main_call0_v4 := by
  obtain ⟨-, -, -, -, -, -, -, -, -, -, e0, e1, -⟩ := idx_facts t
  funext y
  show V m c main_call0_v4 (((cfg0.win 4).blk t).view.emb y) = V m c main_call0_v4 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 512 + 1 * (y 1).val = (y 1).val; omega
theorem blk5 (c : Dev nD) (t : Fin cfg0.N) : (iblk m c 5 t : S512x128.Idx → EReal) = V m c main_call0_v5 := by
  obtain ⟨-, -, -, -, -, -, -, -, -, -, -, -, e0, e1, -⟩ := idx_facts t
  funext y
  show V m c main_call0_v5 (((cfg0.win 5).blk t).view.emb y) = V m c main_call0_v5 y
  refine congrArg _ (funext fun a => Fin.ext ?_)
  match a with
  | ⟨0, _⟩ => show win0_5.index t (0 : Fin 2) * 512 + 1 * (y 0).val = (y 0).val; omega
  | ⟨1, _⟩ => show win0_5.index t (1 : Fin 2) * 128 + 1 * (y 1).val = (y 1).val; omega
theorem blk6 (c : Dev nD) (t : Fin cfg0.N) : (iblk m c 6 t : S1x128.Idx → EReal) = V m c main_call0_v6 := by
  obtain ⟨-, -, -, -, -, -, -, -, -, -, -, -, -, -, e0, e1⟩ := idx_facts t
  funext y
  show V m c main_call0_v6 (((cfg0.win 6).blk t).view.emb y) = V m c main_call0_v6 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- What point `t` writes back is block `t` of the network of all rows: row `p` of the input's block `t` is row
    `256 t + p` of the input, and that is the row of the result the block's row `p` lands on. -/
theorem flushed_eq (c : Dev nD) (t : Fin cfg0.N) :
    (dats m 0 c).flushed 7 t = ((cfg0.win 7).blk t).view.read (Elt Ideal) (result m c) := by
  rw [Cert.ReferenceIdeal.Value.flushed7]
  unfold out0_7
  rw [View.canon_unit_zero origin]
  simp only [View.ld_unit_zero (S := S256x256) origin, View.ld_unit_zero (S := S256x512) origin,
    View.ld_unit_zero (S := S512x512) origin, View.ld_unit_zero (S := S512x128) origin,
    View.ld_unit_zero (S := S1x512) origin, View.ld_unit_zero (S := S1x128) origin]
  rw [payload_eq]
  obtain ⟨e00, e01, e70, e71, -⟩ := idx_facts t
  funext j
  show Cert.Mlp.rows 256 (iblk m c 0 t) (iblk m c 1 t) (iblk m c 2 t) (iblk m c 3 t) (iblk m c 4 t) (iblk m c 5 t)
      (iblk m c 6 t) j = result m c (((cfg0.win 7).blk t).view.emb j)
  rw [blk1, blk2, blk3, blk4, blk5, blk6]
  refine Cert.Mlp.rows_congr _ _ _ _ _ _ _ _ j _ (fun a => ?_) (Fin.ext ?_)
  · show V m c main_call0_v0 (((cfg0.win 0).blk t).view.emb (ix2 (j 0) a)) = V m c main_call0_v0 (ix2 ((((cfg0.win 7).blk t).view.emb j) 0) a)
    refine congrArg _ (funext fun d => Fin.ext ?_)
    match d with
    | ⟨0, _⟩ => show win0_0.index t (0 : Fin 2) * 256 + 1 * (j 0).val = win0_7.index t (0 : Fin 2) * 256 + 1 * (j 0).val; omega
    | ⟨1, _⟩ => show win0_0.index t (1 : Fin 2) * 256 + 1 * a.val = a.val; omega
  · show (j 1).val = win0_7.index t (1 : Fin 2) * 128 + 1 * (j 1).val; omega

/-- An index of the result array is in point `t`'s block iff each coordinate is in the block's range on its axis. -/
theorem mem_blk (t : Fin cfg0.N) (i : S16384x128.Idx) :
    i ∈ ((cfg0.win 7).blk t).view.set ↔ ∀ a : Fin 2, win0_7.index t a * S256x128.size a ≤ (i a).val ∧ (i a).val < win0_7.index t a * S256x128.size a + S256x128.size a := by
  show i ∈ ((View.whole main_v0).slice (win0_7.rect t)).set ↔ _
  rw [View.set_slice_whole, Rect.mem_set_unit]
  exact Iff.rfl

/-- The 64 blocks cover the result array: row `r` is in the block of point `r / 256`. -/
theorem cover (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  refine ⟨⟨(i 0).val / 256, by show _ < 64; omega⟩, flush0_7 _, ?_⟩
  rw [mem_blk]
  obtain ⟨-, -, e70, e71, -⟩ := idx_facts ⟨(i 0).val / 256, by show _ < 64; omega⟩
  intro a
  match a with
  | ⟨0, _⟩ => show win0_7.index _ (0 : Fin 2) * 256 ≤ (i 0).val ∧ (i 0).val < win0_7.index _ (0 : Fin 2) * 256 + 256; rw [e70]; show (i 0).val / 256 * 256 ≤ (i 0).val ∧ (i 0).val < (i 0).val / 256 * 256 + 256; omega
  | ⟨1, _⟩ => show win0_7.index _ (1 : Fin 2) * 128 ≤ (i 1).val ∧ (i 1).val < win0_7.index _ (1 : Fin 2) * 128 + 128; rw [e71]; omega

/-- The result array after the run is the network of all rows of the arguments. -/
theorem final (c : Dev nD) : (dats m 0 c).arrAt 7 cfg0.N = Cert.Mlp.rows 16384 (m ((c : Thread nD τ).loc main_arg0))
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) := by
  rw [(dats m 0 c).arrAt_eq_of_cover 7 (result m c) (fun t _ => flushed_eq m c t) cover]
  unfold result
  rw [entry0, entry1, entry2, entry3, entry4, entry5, entry6]

/-- The reference's run: the result array ends at the network of the argument arrays' rows, the arguments unchanged. -/
theorem run : θ_run defs (onTc (τ := τ) (main (F := Ideal))) ⟨m, fun _ => 0, ρ⟩ fun r => ∀ c : Dev nD,
      r.2.mem ((c : Thread nD τ).loc main_v0) = Cert.Mlp.rows 16384 (m ((c : Thread nD τ).loc main_arg0))
          (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Cert.ReferenceIdeal.Value.run_blocks m ρ)

end Cert.ReferenceIdeal.Whole

end
-- ==== Proof.lean ====
/-
  A three-layer perceptron — `relu (relu (x · W1 + b1) · W2 + b2) · W3 + b3` over 16384 rows, `256 → 512 → 512 → 128` —
  computed by two pipelines that differ in two things only. The kernel takes the rows 4096 at a time and feeds its matrix
  unit bf16 operands; the reference takes them 256 at a time in f32, after the host has padded every array by nothing.

  On the extended reals neither difference is one. A change of float format is the identity, so the kernel's three
  products are the reference's; and row `r` of the result is a function of row `r` of the input and of the weights alone
  (Proof/MlpSpec.lean), so it does not matter which block a row travels in. Each program's result array is therefore the
  same function of the arguments, `Cert.Mlp.rows 16384`: the kernel's by Proof/KernelValue.lean, the reference's by
  Proof/ReferenceValue.lean, each from what one grid point writes back and from the blocks tiling the array. The two sums
  of each product run over the same index in the same order, so no law of arithmetic is used and the inputs' finiteness
  is never opened.

  The three frames are the generated ones; the ideal pass rewrote nothing, so `preserves` is `True`.
-/
import proofs.«144874_g2000506360787946_pallasbulk_1180_5_alg».proof.Defs
import proofs.«144874_g2000506360787946_pallasbulk_1180_5_alg».proof.Proof.Gen.Kernel
import proofs.«144874_g2000506360787946_pallasbulk_1180_5_alg».proof.Proof.Gen.Kernel.Skeleton
import proofs.«144874_g2000506360787946_pallasbulk_1180_5_alg».proof.Proof.Gen.Kernel.Launch
import proofs.«144874_g2000506360787946_pallasbulk_1180_5_alg».proof.Proof.Gen.Kernel.Points
import proofs.«144874_g2000506360787946_pallasbulk_1180_5_alg».proof.Proof.Gen.Kernel.Frame
import proofs.«144874_g2000506360787946_pallasbulk_1180_5_alg».proof.Proof.Gen.KernelIdeal
import proofs.«144874_g2000506360787946_pallasbulk_1180_5_alg».proof.Proof.Gen.KernelIdeal.Skeleton
import proofs.«144874_g2000506360787946_pallasbulk_1180_5_alg».proof.Proof.Gen.KernelIdeal.Launch
import proofs.«144874_g2000506360787946_pallasbulk_1180_5_alg».proof.Proof.Gen.KernelIdeal.Points
import proofs.«144874_g2000506360787946_pallasbulk_1180_5_alg».proof.Proof.Gen.KernelIdeal.Frame
import proofs.«144874_g2000506360787946_pallasbulk_1180_5_alg».proof.Proof.Gen.ReferenceIdeal
import proofs.«144874_g2000506360787946_pallasbulk_1180_5_alg».proof.Proof.Gen.ReferenceIdeal.Skeleton
import proofs.«144874_g2000506360787946_pallasbulk_1180_5_alg».proof.Proof.Gen.ReferenceIdeal.Launch
import proofs.«144874_g2000506360787946_pallasbulk_1180_5_alg».proof.Proof.Gen.ReferenceIdeal.Points
import proofs.«144874_g2000506360787946_pallasbulk_1180_5_alg».proof.Proof.Gen.ReferenceIdeal.Frame
import proofs.«144874_g2000506360787946_pallasbulk_1180_5_alg».proof.Proof.Gen.Pre_finite_inputs
import proofs.«144874_g2000506360787946_pallasbulk_1180_5_alg».proof.Proof.Gen.KernelIdeal.Value
import proofs.«144874_g2000506360787946_pallasbulk_1180_5_alg».proof.Proof.Gen.ReferenceIdeal.Value
import proofs.«144874_g2000506360787946_pallasbulk_1180_5_alg».proof.Proof.KernelValue
import proofs.«144874_g2000506360787946_pallasbulk_1180_5_alg».proof.Proof.ReferenceValue
import Idealize.ShloMosaic.Adequacy
import Idealize.ShloMosaic.Init

noncomputable section

namespace Cert.Proof

open Idealize.ShloMosaic Idealize.ShloMosaic.TcCoe Idealize.SL.Sem

/-- Both idealized programs, run from memories that agree on the arguments, end with the result array at the network of
    the argument arrays' rows: the kernel's run and the reference's run post the same function, of arguments that are
    equal by hypothesis. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Whole.run m' ρ')
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => Cert.ReferenceIdeal.Gen.frame m ρ,
  trivial,
  algebraic⟩

end Cert.Proof

end
